-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S256x128 .f32) (main_arg4 : FVec F S128x128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S6400x128 : Shape := ⟨2, ![6400, 128]⟩
abbrev S1x128 : Shape := ⟨2, ![1, 128]⟩
abbrev S2000x128 : Shape := ⟨2, ![2000, 128]⟩

abbrev nBuf : Space → Nat
  | .hbm => 39
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S50000x128, .bf16⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S128x128, .bf16⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x128, .bf16⟩
  | .hbm, ⟨37, _⟩ => ⟨S1x128, .f32⟩
  | .hbm, ⟨38, _⟩ => ⟨S50000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S6400x128, .f32⟩
  | .local _ .vmem, ⟨8, _⟩ => ⟨S6400x128, .f32⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S128x128, .bf16⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .bf16 = 32 ∨ (Rect.block (s := S800000x128) S6400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S800000x128.size a
  hwx0_5 : ∀ i : grid0.Coords, EltTy.bits .f32 = 32 ∨ (Rect.block (s := S800000x128) S6400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v7) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x256, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S_S800000x128 : S_.BroadcastsInDim S800000x128 (![] : Fin 0 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.Spec.lean ====
/-
  WHAT BOTH PROGRAMS COMPUTE, as functions of arrays of extended reals, index by index (this module mentions no program).

  Message passing on a graph with E edges and N nodes, 128 features. Edge e carries the rows S e and D e that were
  gathered for its two end points. With the first-layer weight W1 : [256, 128] cut into its top half A (rows 0..127)
  and its bottom half B (rows 128..255) and the second-layer weight W2 : [128, 128],

      msg e j  =  ∑ k, max (∑ a, S e a · A a k + ∑ a, D e a · B a k) 0 · W2 k j ,

  and, with the per-node sums T of the messages, the node features X, the loop weight L and the bias b,

      out n j  =  T n j + ∑ k, X n k · L k j + b j .

  One program multiplies S by A and D by B and adds; the other multiplies the row (S e | D e) of length 256 by the
  whole W1. A sum over 256 indices is the sum over the first 128 plus the sum over the last 128 (addition of extended
  reals is commutative and associative; nothing here multiplies a sum, so no finiteness is needed).
-/
import Idealize.ShloMosaic.PureOps.Ideal
import Idealize.ShloMosaic.Lib.ValueIdx

noncomputable section

open scoped BigOperators

namespace Cert.EdgeConv

open Idealize.ShloMosaic Idealize.ShloMosaic.ValueIdx

/-- Row `a` of the top half of a 256-row matrix. -/
abbrev top (a : Fin 128) : Fin 256 := ⟨a.val, by omega⟩
/-- Row `a` of the bottom half of a 256-row matrix. -/
abbrev bot (a : Fin 128) : Fin 256 := ⟨128 + a.val, by omega⟩

/-- A sum over 256 indices is the sum over the first 128 plus the sum over the last 128. -/
theorem sum_halves {M : Type*} [AddCommMonoid M] (f : Fin 256 → M) :
    ∑ k, f k = ∑ a : Fin 128, f (top a) + ∑ a : Fin 128, f (bot a) :=
  Fin.sum_univ_add (a := 128) (b := 128) f

/-- The top half of a [256, 128] matrix. -/
def topHalf (w : (⟨2, ![256, 128]⟩ : Shape).Idx → EReal) : (⟨2, ![128, 128]⟩ : Shape).Idx → EReal :=
  fun j => w (ix2 (top (j 0)) (j 1))
/-- The bottom half of a [256, 128] matrix. -/
def botHalf (w : (⟨2, ![256, 128]⟩ : Shape).Idx → EReal) : (⟨2, ![128, 128]⟩ : Shape).Idx → EReal :=
  fun j => w (ix2 (bot (j 0)) (j 1))

/-- The hidden layer before the rectifier: the source row times the first weight plus the destination row times the
    second. -/
def hidden {E : Nat} (S D : (⟨2, ![E, 128]⟩ : Shape).Idx → EReal) (A B : (⟨2, ![128, 128]⟩ : Shape).Idx → EReal)
    (e : Fin E) (k : Fin 128) : EReal :=
  ∑ a : Fin 128, S (ix2 e a) * A (ix2 a k) + ∑ a : Fin 128, D (ix2 e a) * B (ix2 a k)

/-- The edge messages: the rectified hidden layer times the second-layer weight. -/
def edgeMsg {E : Nat} (S D : (⟨2, ![E, 128]⟩ : Shape).Idx → EReal) (A B W2 : (⟨2, ![128, 128]⟩ : Shape).Idx → EReal) :
    (⟨2, ![E, 128]⟩ : Shape).Idx → EReal :=
  fun i => ∑ k : Fin 128, max (hidden S D A B (i 0) k) 0 * W2 (ix2 k (i 1))

/-- The node update: the summed messages plus the self-loop product plus the bias. -/
def nodeOut {N : Nat} (T X : (⟨2, ![N, 128]⟩ : Shape).Idx → EReal) (L : (⟨2, ![128, 128]⟩ : Shape).Idx → EReal)
    (b : (⟨1, ![128]⟩ : Shape).Idx → EReal) : (⟨2, ![N, 128]⟩ : Shape).Idx → EReal :=
  fun i => T i + ∑ k : Fin 128, X (ix2 (i 0) k) * L (ix2 k (i 1)) + b (ix1 (i 1))

/-- The row (S e | D e) of length 256 times the whole first-layer weight is the hidden layer over the two halves. -/
theorem hidden_of_joined {E : Nat} (S D : (⟨2, ![E, 128]⟩ : Shape).Idx → EReal) (C : (⟨2, ![E, 256]⟩ : Shape).Idx → EReal)
    (W : (⟨2, ![256, 128]⟩ : Shape).Idx → EReal)
    (hS : ∀ (e : Fin E) (a : Fin 128), C (ix2 e (top a)) = S (ix2 e a))
    (hD : ∀ (e : Fin E) (a : Fin 128), C (ix2 e (bot a)) = D (ix2 e a)) (e : Fin E) (k : Fin 128) :
    ∑ a' : Fin 256, C (ix2 e a') * W (ix2 a' k) = hidden S D (topHalf W) (botHalf W) e k := by
  rw [sum_halves]
  unfold hidden topHalf botHalf
  refine congrArg₂ (· + ·) (Finset.sum_congr rfl fun a _ => ?_) (Finset.sum_congr rfl fun a _ => ?_)
  · rw [hS]
  · rw [hD]

/-- A message depends only on its own edge's two rows: if row `e'` of S', D' is row `e` of S, D, the sum computed
    from row `e'` is the message of edge `e`. -/
theorem edgeMsg_of_rows {E E' : Nat} (S D : (⟨2, ![E, 128]⟩ : Shape).Idx → EReal) (S' D' : (⟨2, ![E', 128]⟩ : Shape).Idx → EReal)
    (A B W2 : (⟨2, ![128, 128]⟩ : Shape).Idx → EReal) (e : Fin E) (e' : Fin E')
    (hS : ∀ a : Fin 128, S' (ix2 e' a) = S (ix2 e a)) (hD : ∀ a : Fin 128, D' (ix2 e' a) = D (ix2 e a)) (j : Fin 128) :
    ∑ k : Fin 128, max (hidden S' D' A B e' k) 0 * W2 (ix2 k j) = edgeMsg S D A B W2 (ix2 e j) := by
  unfold edgeMsg hidden
  refine Finset.sum_congr rfl fun k _ => ?_
  refine congrArg (fun h => max h 0 * W2 (ix2 k j)) ?_
  exact congrArg₂ (· + ·) (Finset.sum_congr rfl fun a _ => congrArg (· * A (ix2 a k)) (hS a))
    (Finset.sum_congr rfl fun a _ => congrArg (· * B (ix2 a k)) (hD a))

/-- A node's output depends only on its own rows of T and X. -/
theorem nodeOut_of_rows {N N' : Nat} (T X : (⟨2, ![N, 128]⟩ : Shape).Idx → EReal) (T' X' : (⟨2, ![N', 128]⟩ : Shape).Idx → EReal)
    (L : (⟨2, ![128, 128]⟩ : Shape).Idx → EReal) (b : (⟨1, ![128]⟩ : Shape).Idx → EReal) (n : Fin N) (n' : Fin N')
    (hT : ∀ a : Fin 128, T' (ix2 n' a) = T (ix2 n a)) (hX : ∀ a : Fin 128, X' (ix2 n' a) = X (ix2 n a)) (j : Fin 128) :
    T' (ix2 n' j) + ∑ k : Fin 128, X' (ix2 n' k) * L (ix2 k j) + b (ix1 j) = nodeOut T X L b (ix2 n j) := by
  unfold nodeOut
  rw [hT]
  exact congrArg (fun s => T (ix2 n j) + s + b (ix1 j)) (Finset.sum_congr rfl fun k _ => congrArg (· * L (ix2 k j)) (hX k))

end Cert.EdgeConv

end
-- ==== Proof.Payload.lean ====
/-
  The two kernel bodies' arithmetic at one element, on the extended reals.

  The edge body takes the source block S and the destination block D (6400 edges each), the two halves A, B of the
  first weight and the second weight W2, and stores  ∑ k, max (∑ a, S e a · A a k + ∑ a, D e a · B a k) 0 · W2 k j :
  three products into a zero accumulator (each a plain finite sum), one addition, one maximum with the zero splat and a
  change of format, which is the identity on the extended reals. The node body takes the summed messages T, the node
  features X (2000 nodes each), the loop weight L and the bias as one row, and stores  T n j + ∑ k, X n k · L k j + b j.
-/
import proofs.«132703_j22179211116725_1_alg».proof.Proof.Gen.KernelIdeal.Skeleton
import proofs.«132703_j22179211116725_1_alg».proof.Proof.LibPlainDot
import proofs.«132703_j22179211116725_1_alg».proof.Proof.Spec
import Idealize.ShloMosaic.Lib.Pipeline.Value
import Idealize.ShloMosaic.Lib.ValueLayout

noncomputable section

open scoped BigOperators

namespace Cert.KernelIdeal.Payload

open Cert.KernelIdeal Cert.KernelIdeal.Gen Cert.EdgeConv
open Idealize.ShloMosaic Idealize.ShloMosaic.ValueIdx

/-- The edge body's three products are plain [6400, 128] × [128, 128] products. -/
theorem plain_edge : Cert.Lib.PlainDot.Plain dot_S6400x128_S128x128_S6400x128_1_0_0_1_n_n := ⟨rfl, rfl, rfl, rfl, rfl, rfl⟩
/-- The node body's product is a plain [2000, 128] × [128, 128] product. -/
theorem plain_node : Cert.Lib.PlainDot.Plain dot_S2000x128_S128x128_S2000x128_1_0_0_1_n_n := ⟨rfl, rfl, rfl, rfl, rfl, rfl⟩

/-- The edge body's stored value at row `e` of the block and column `j`. -/
theorem edge_apply (S D : Vec Ideal S6400x128 .bf16) (A B W2 : Vec Ideal S128x128 .bf16) (e : Fin 6400) (j : Fin 128) :
    k0_pay1 (F := Ideal) S D A B W2 (ix2 e j) = ∑ k : Fin 128, max (hidden S D A B e k) 0 * W2 (ix2 k j) := by
  unfold k0_pay1
  simp only [shapeCast_self]
  refine (Cert.Lib.PlainDot.matmul_zero_apply plain_edge (φ₁ := .bf16) (φ₂ := .bf16) none _ W2 (ix2 e j)).trans ?_
  refine Finset.sum_congr rfl fun k _ => ?_
  refine congrArg (· * W2 (ix2 k j)) ?_
  exact congrArg₂ max
    (congrArg₂ (· + ·)
      (Cert.Lib.PlainDot.matmul_zero_apply plain_edge (φ₁ := .bf16) (φ₂ := .bf16) none S A (ix2 e k))
      (Cert.Lib.PlainDot.matmul_zero_apply plain_edge (φ₁ := .bf16) (φ₂ := .bf16) none D B (ix2 e k)))
    Ideal.ofBits_zero_f32

/-- The node body's stored value at row `n` of the block and column `j`. -/
theorem node_apply (T : Vec Ideal S2000x128 .f32) (X : Vec Ideal S2000x128 .bf16) (L : Vec Ideal S128x128 .bf16)
    (b : Vec Ideal S1x128 .f32) (n : Fin 2000) (j : Fin 128) :
    k1_pay1 (F := Ideal) T X L b (ix2 n j) = T (ix2 n j) + ∑ k : Fin 128, X (ix2 n k) * L (ix2 k j) + b (ix2 (0 : Fin 1) j) := by
  unfold k1_pay1
  simp only [shapeCast_self]
  exact congrArg₂ (· + ·)
    (congrArg (T (ix2 n j) + ·) (Cert.Lib.PlainDot.matmul_zero_apply plain_node (φ₁ := .bf16) (φ₂ := .bf16) none X L (ix2 n j)))
    (broadcastTo_1b_ab_apply b broadcasts_S1x128_S2000x128 n j)

end Cert.KernelIdeal.Payload

end
-- ==== Proof.EdgeRegion.lean ====
/-
  THE FIRST REGION'S RESULT ARRAY. The edge kernel runs over 125 grid points; point t stages rows 6400·t … 6400·t + 6399
  of the two gathered arrays (source rows S, destination rows D), the three weights whole, and writes back rows
  6400·t … 6400·t + 6399 of the message array. What it stores at row e of its block is the message of edge 6400·t + e:
  a message depends on its own edge's rows only. The 125 blocks tile the 800000 rows, so after the run the message
  array is the edge-message function of the arrays the region found.
-/
import proofs.«132703_j22179211116725_1_alg».proof.Proof.Gen.KernelIdeal.Frame
import proofs.«132703_j22179211116725_1_alg».proof.Proof.Payload
import Idealize.ShloMosaic.Lib.Pipeline.Value

set_option maxRecDepth 16384

noncomputable section

open scoped BigOperators

namespace Cert.KernelIdeal.EdgeRegion

open Cert.KernelIdeal Cert.KernelIdeal.Gen Cert.EdgeConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the two row windows and the output move with the point along the rows, the
    weights stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt_points (t : Fin cfg0.N) : t.val < 125 := lt_of_lt_of_eq t.isLt N_0

/-- The edge that row `e` of point `t`'s block is. -/
def edgeOf (t : Fin cfg0.N) (e : Fin 6400) : Fin 800000 := ⟨t.val * 6400 + e.val, by have := lt_points t; have := e.isLt; omega⟩

/-- The source block at a point is rows of the gathered source array. -/
theorem src_blk (c : Dev nD) (t : Fin cfg0.N) (e : Fin 6400) (a : Fin 128) :
    iblk0 V c 0 t (ix2 e a) = V c main_v7 (ix2 (edgeOf t e) a) := by
  obtain ⟨h0, h1, -⟩ := idx_facts t
  show V c main_v7 (((cfg0.win 0).blk t).view.emb (ix2 e a)) = V c main_v7 (ix2 (edgeOf t e) a)
  refine congrArg (V c main_v7) (funext fun ax => Fin.ext ?_)
  match ax with
  | ⟨0, _⟩ => show win0_0.index t (0 : Fin 2) * 6400 + 1 * e.val = t.val * 6400 + e.val; omega
  | ⟨1, _⟩ => show win0_0.index t (1 : Fin 2) * 128 + 1 * a.val = a.val; omega

/-- The destination block at a point is rows of the gathered destination array. -/
theorem dst_blk (c : Dev nD) (t : Fin cfg0.N) (e : Fin 6400) (a : Fin 128) :
    iblk0 V c 1 t (ix2 e a) = V c main_v14 (ix2 (edgeOf t e) a) := by
  obtain ⟨-, -, h0, h1, -⟩ := idx_facts t
  show V c main_v14 (((cfg0.win 1).blk t).view.emb (ix2 e a)) = V c main_v14 (ix2 (edgeOf t e) a)
  refine congrArg (V c main_v14) (funext fun ax => Fin.ext ?_)
  match ax with
  | ⟨0, _⟩ => show win0_1.index t (0 : Fin 2) * 6400 + 1 * e.val = t.val * 6400 + e.val; omega
  | ⟨1, _⟩ => show win0_1.index t (1 : Fin 2) * 128 + 1 * a.val = a.val; omega

/-- Each weight's block is the whole weight, at every point. -/
theorem w1a_blk (c : Dev nD) (t : Fin cfg0.N) : iblk0 V c 2 t = V c main_v16 := by
  obtain ⟨-, -, -, -, h0, h1, -⟩ := idx_facts t
  funext y
  show V c main_v16 (((cfg0.win 2).blk t).view.emb y) = V c main_v16 y
  refine congrArg (V c main_v16) (funext fun ax => Fin.ext ?_)
  match ax with
  | ⟨0, _⟩ => show win0_2.index t (0 : Fin 2) * 128 + 1 * (y 0).val = (y 0).val; omega
  | ⟨1, _⟩ => show win0_2.index t (1 : Fin 2) * 128 + 1 * (y 1).val = (y 1).val; omega
theorem w1b_blk (c : Dev nD) (t : Fin cfg0.N) : iblk0 V c 3 t = V c main_v18 := by
  obtain ⟨-, -, -, -, -, -, h0, h1, -⟩ := idx_facts t
  funext y
  show V c main_v18 (((cfg0.win 3).blk t).view.emb y) = V c main_v18 y
  refine congrArg (V c main_v18) (funext fun ax => Fin.ext ?_)
  match ax with
  | ⟨0, _⟩ => show win0_3.index t (0 : Fin 2) * 128 + 1 * (y 0).val = (y 0).val; omega
  | ⟨1, _⟩ => show win0_3.index t (1 : Fin 2) * 128 + 1 * (y 1).val = (y 1).val; omega
theorem w2_blk (c : Dev nD) (t : Fin cfg0.N) : iblk0 V c 4 t = V c main_v19 := by
  obtain ⟨-, -, -, -, -, -, -, -, h0, h1, -⟩ := idx_facts t
  funext y
  show V c main_v19 (((cfg0.win 4).blk t).view.emb y) = V c main_v19 y
  refine congrArg (V c main_v19) (funext fun ax => Fin.ext ?_)
  match ax with
  | ⟨0, _⟩ => show win0_4.index t (0 : Fin 2) * 128 + 1 * (y 0).val = (y 0).val; omega
  | ⟨1, _⟩ => show win0_4.index t (1 : Fin 2) * 128 + 1 * (y 1).val = (y 1).val; omega

/-- The message array as a function of the arrays the region finds. -/
abbrev msgs (c : Dev nD) : S800000x128.Idx → EReal :=
  edgeMsg (V c main_v7) (V c main_v14) (V c main_v16) (V c main_v18) (V c main_v19)

/-- What point `t` writes back is block `t` of the message array. -/
theorem flushed_eq (c : Dev nD) (t : Fin cfg0.N) :
    (dat0 V c).flushed 5 t = ((cfg0.win 5).blk t).view.read (Elt Ideal) (msgs V c) := by
  show (cfg0.win 5).cut (grid0.coords t) ((dat0 V c).after 5 t) = _
  rw [after0_5]
  unfold out0_5
  rw [View.canon_unit_zero zero_off]
  simp only [View.ld_unit_zero (S := S6400x128) zero_off, View.ld_unit_zero (S := S128x128) zero_off]
  rw [w1a_blk, w1b_blk, w2_blk]
  obtain ⟨-, -, -, -, -, -, -, -, -, -, h0, h1⟩ := idx_facts t
  funext y
  obtain ⟨e, j, rfl⟩ : ∃ (e : Fin 6400) (j : Fin 128), y = ix2 e j := ⟨y 0, y 1, eq_ix2 y⟩
  show k0_pay1 (F := Ideal) (iblk0 V c 0 t) (iblk0 V c 1 t) (V c main_v16) (V c main_v18) (V c main_v19) (ix2 e j)
    = msgs V c (((cfg0.win 5).blk t).view.emb (ix2 e j))
  have hemb : ((cfg0.win 5).blk t).view.emb (ix2 e j) = ix2 (edgeOf t e) j := funext fun ax => Fin.ext (by
    match ax with
    | ⟨0, _⟩ => show win0_5.index t (0 : Fin 2) * 6400 + 1 * e.val = t.val * 6400 + e.val; omega
    | ⟨1, _⟩ => show win0_5.index t (1 : Fin 2) * 128 + 1 * j.val = j.val; omega)
  rw [hemb]
  refine (Payload.edge_apply (iblk0 V c 0 t) (iblk0 V c 1 t) (V c main_v16) (V c main_v18) (V c main_v19) e j).trans ?_
  exact edgeMsg_of_rows (V c main_v7) (V c main_v14) (iblk0 V c 0 t) (iblk0 V c 1 t) (V c main_v16) (V c main_v18) (V c main_v19)
    (edgeOf t e) e (src_blk V c t e) (dst_blk V c t e) j

/-- An index of the message array is in point `t`'s block iff each coordinate is in the block's range. -/
theorem mem_blk (t : Fin cfg0.N) (i : S800000x128.Idx) :
    i ∈ ((cfg0.win 5).blk t).view.set ↔ ∀ a : Fin 2, win0_5.index t a * S6400x128.size a ≤ (i a).val ∧ (i a).val < win0_5.index t a * S6400x128.size a + S6400x128.size a := by
  show i ∈ ((View.whole main_v20).slice (win0_5.rect t)).set ↔ _
  rw [View.set_slice_whole, Rect.mem_set_unit]
  exact Iff.rfl

/-- Every row is in the block of the point its index divided by 6400 names. -/
theorem cover (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  let t : Fin cfg0.N := ⟨(i 0).val / 6400, lt_of_lt_of_eq (by omega : (i 0).val / 6400 < 125) N_0.symm⟩
  obtain ⟨-, -, -, -, -, -, -, -, -, -, h0, h1⟩ := idx_facts t
  have ht : t.val = (i 0).val / 6400 := rfl
  refine ⟨t, flush0_5 t, ?_⟩
  rw [mem_blk]
  intro a
  match a with
  | ⟨0, _⟩ => show win0_5.index t (0 : Fin 2) * 6400 ≤ (i 0).val ∧ (i 0).val < win0_5.index t (0 : Fin 2) * 6400 + 6400; omega
  | ⟨1, _⟩ => show win0_5.index t (1 : Fin 2) * 128 ≤ (i 1).val ∧ (i 1).val < win0_5.index t (1 : Fin 2) * 128 + 128; omega

/-- THE MESSAGE ARRAY after the region. -/
theorem final (c : Dev nD) : (dat0 V c).arrAt 5 cfg0.N = msgs V c :=
  (dat0 V c).arrAt_eq_of_cover 5 (msgs V c) (fun t _ => flushed_eq V c t) cover

end Cert.KernelIdeal.EdgeRegion

end
-- ==== Proof.NodeRegion.lean ====
/-
  THE SECOND REGION'S RESULT ARRAY. The node kernel runs over 25 grid points; point t stages rows 2000·t … 2000·t + 1999
  of the summed messages T and of the node features X, the loop weight L and the one-row bias whole, and writes back
  rows 2000·t … 2000·t + 1999 of the result. What it stores at row n of its block is the output of node 2000·t + n,
  which depends on that node's rows only. The 25 blocks tile the 50000 rows, so after the run the result array is the
  node-update function of the arrays the region found.
-/
import proofs.«132703_j22179211116725_1_alg».proof.Proof.Gen.KernelIdeal.Frame
import proofs.«132703_j22179211116725_1_alg».proof.Proof.Payload
import Idealize.ShloMosaic.Lib.Pipeline.Value

set_option maxRecDepth 16384

noncomputable section

open scoped BigOperators

namespace Cert.KernelIdeal.NodeRegion

open Cert.KernelIdeal Cert.KernelIdeal.Gen Cert.EdgeConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the two row windows and the output move with the point along the rows, the
    loop weight and the bias row stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_points (t : Fin cfg1.N) : t.val < 25 := lt_of_lt_of_eq t.isLt N_1

/-- The node that row `n` of point `t`'s block is. -/
def nodeOf (t : Fin cfg1.N) (n : Fin 2000) : Fin 50000 := ⟨t.val * 2000 + n.val, by have := lt_points t; have := n.isLt; omega⟩

/-- The block of summed messages at a point is rows of the summed-message array. -/
theorem sum_blk (c : Dev nD) (t : Fin cfg1.N) (n : Fin 2000) (a : Fin 128) :
    iblk1 V c 0 t (ix2 n a) = V c main_v23 (ix2 (nodeOf t n) a) := by
  obtain ⟨h0, h1, -⟩ := idx_facts t
  show V c main_v23 (((cfg1.win 0).blk t).view.emb (ix2 n a)) = V c main_v23 (ix2 (nodeOf t n) a)
  refine congrArg (V c main_v23) (funext fun ax => Fin.ext ?_)
  match ax with
  | ⟨0, _⟩ => show win1_0.index t (0 : Fin 2) * 2000 + 1 * n.val = t.val * 2000 + n.val; omega
  | ⟨1, _⟩ => show win1_0.index t (1 : Fin 2) * 128 + 1 * a.val = a.val; omega

/-- The feature block at a point is rows of the feature array. -/
theorem feat_blk (c : Dev nD) (t : Fin cfg1.N) (n : Fin 2000) (a : Fin 128) :
    iblk1 V c 1 t (ix2 n a) = V c main_v0 (ix2 (nodeOf t n) a) := by
  obtain ⟨-, -, h0, h1, -⟩ := idx_facts t
  show V c main_v0 (((cfg1.win 1).blk t).view.emb (ix2 n a)) = V c main_v0 (ix2 (nodeOf t n) a)
  refine congrArg (V c main_v0) (funext fun ax => Fin.ext ?_)
  match ax with
  | ⟨0, _⟩ => show win1_1.index t (0 : Fin 2) * 2000 + 1 * n.val = t.val * 2000 + n.val; omega
  | ⟨1, _⟩ => show win1_1.index t (1 : Fin 2) * 128 + 1 * a.val = a.val; omega

/-- The loop weight's block is the whole weight, and the bias row's block the whole row, at every point. -/
theorem loop_blk (c : Dev nD) (t : Fin cfg1.N) : iblk1 V c 2 t = V c main_v24 := by
  obtain ⟨-, -, -, -, h0, h1, -⟩ := idx_facts t
  funext y
  show V c main_v24 (((cfg1.win 2).blk t).view.emb y) = V c main_v24 y
  refine congrArg (V c main_v24) (funext fun ax => Fin.ext ?_)
  match ax with
  | ⟨0, _⟩ => show win1_2.index t (0 : Fin 2) * 128 + 1 * (y 0).val = (y 0).val; omega
  | ⟨1, _⟩ => show win1_2.index t (1 : Fin 2) * 128 + 1 * (y 1).val = (y 1).val; omega
theorem bias_blk (c : Dev nD) (t : Fin cfg1.N) : iblk1 V c 3 t = V c main_v25 := by
  obtain ⟨-, -, -, -, -, -, h0, h1, -⟩ := idx_facts t
  funext y
  show V c main_v25 (((cfg1.win 3).blk t).view.emb y) = V c main_v25 y
  refine congrArg (V c main_v25) (funext fun ax => Fin.ext ?_)
  match ax with
  | ⟨0, _⟩ => show win1_3.index t (0 : Fin 2) * 1 + 1 * (y 0).val = (y 0).val; omega
  | ⟨1, _⟩ => show win1_3.index t (1 : Fin 2) * 128 + 1 * (y 1).val = (y 1).val; omega

/-- The one-row bias as a vector of 128 entries. -/
abbrev biasRow (c : Dev nD) : (⟨1, ![128]⟩ : Shape).Idx → EReal := fun q => V c main_v25 (ix2 (0 : Fin 1) (q 0))

/-- The result array as a function of the arrays the region finds. -/
abbrev outs (c : Dev nD) : S50000x128.Idx → EReal :=
  nodeOut (V c main_v23) (V c main_v0) (V c main_v24) (biasRow V c)

/-- What point `t` writes back is block `t` of the result array. -/
theorem flushed_eq (c : Dev nD) (t : Fin cfg1.N) :
    (dat1 V c).flushed 4 t = ((cfg1.win 4).blk t).view.read (Elt Ideal) (outs V c) := by
  show (cfg1.win 4).cut (grid1.coords t) ((dat1 V c).after 4 t) = _
  rw [after1_4]
  unfold out1_4
  rw [View.canon_unit_zero zero_off]
  simp only [View.ld_unit_zero (S := S2000x128) zero_off, View.ld_unit_zero (S := S128x128) zero_off, View.ld_unit_zero (S := S1x128) zero_off]
  rw [loop_blk, bias_blk]
  obtain ⟨-, -, -, -, -, -, -, -, h0, h1⟩ := idx_facts t
  funext y
  obtain ⟨n, j, rfl⟩ : ∃ (n : Fin 2000) (j : Fin 128), y = ix2 n j := ⟨y 0, y 1, eq_ix2 y⟩
  show k1_pay1 (F := Ideal) (iblk1 V c 0 t) (iblk1 V c 1 t) (V c main_v24) (V c main_v25) (ix2 n j)
    = outs V c (((cfg1.win 4).blk t).view.emb (ix2 n j))
  have hemb : ((cfg1.win 4).blk t).view.emb (ix2 n j) = ix2 (nodeOf t n) j := funext fun ax => Fin.ext (by
    match ax with
    | ⟨0, _⟩ => show win1_4.index t (0 : Fin 2) * 2000 + 1 * n.val = t.val * 2000 + n.val; omega
    | ⟨1, _⟩ => show win1_4.index t (1 : Fin 2) * 128 + 1 * j.val = j.val; omega)
  rw [hemb]
  refine (Payload.node_apply (iblk1 V c 0 t) (iblk1 V c 1 t) (V c main_v24) (V c main_v25) n j).trans ?_
  exact nodeOut_of_rows (V c main_v23) (V c main_v0) (iblk1 V c 0 t) (iblk1 V c 1 t) (V c main_v24) (biasRow V c)
    (nodeOf t n) n (sum_blk V c t n) (feat_blk V c t n) j

/-- An index of the result array is in point `t`'s block iff each coordinate is in the block's range. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v26).slice (win1_4.rect t)).set ↔ _
  rw [View.set_slice_whole, Rect.mem_set_unit]
  exact Iff.rfl

/-- Every row is in the block of the point its index divided by 2000 names. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 2000, lt_of_lt_of_eq (by omega : (i 0).val / 2000 < 25) N_1.symm⟩
  obtain ⟨-, -, -, -, -, -, -, -, h0, h1⟩ := idx_facts t
  have ht : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE RESULT ARRAY after the region. -/
theorem final (c : Dev nD) : (dat1 V c).arrAt 4 cfg1.N = outs V c :=
  (dat1 V c).arrAt_eq_of_cover 4 (outs V c) (fun t _ => flushed_eq V c t) cover

end Cert.KernelIdeal.NodeRegion

end
-- ==== Proof.KernelValue.lean ====
/-
  THE KERNEL PROGRAM'S RESULT as the node update of the scattered edge messages.

  Before the first region the host operations make the two gathered arrays (rows of the node features at the source
  and at the destination indices, a negative index wrapped by the node count first), the two halves of the first-layer
  weight (row slices 0..127 and 128..255) and the second-layer weight; every change of float format is the identity on
  the extended reals. The first region leaves the edge messages of those arrays. Between the regions the host
  scatter-adds the messages into zeros at the destination indices and reshapes the bias to one row. The second region
  leaves the node update of the scattered sums, the node features, the loop weight and the bias row.
-/
import proofs.«132703_j22179211116725_1_alg».proof.Proof.KernelRun
import proofs.«132703_j22179211116725_1_alg».proof.Proof.EdgeRegion
import proofs.«132703_j22179211116725_1_alg».proof.Proof.NodeRegion
import Idealize.ShloMosaic.Lib.StableHlo.Run
import Idealize.ShloMosaic.Lib.ValueLayout

set_option maxRecDepth 16384

noncomputable section

open scoped BigOperators

namespace Cert.KernelIdeal.KernelValue

open Cert.KernelIdeal Cert.KernelIdeal.Gen Cert.EdgeConv
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- An index vector with its negative entries wrapped by the node count, as a column. -/
abbrev wrapCol (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-! ## Before the first region -/

theorem feat16_eq (c : Dev nD) : V1 m ρ c main_v0 = (truncf .bf16 (m ((c : Thread nD τ).loc main_arg0)) bitsLt_bf16_f32 : FVec Ideal S50000x128 .bf16) := by
  show StableHlo.after hostOps0 (W0 m ρ c) (Proc.devRef .tc main_v0) = _
  after_results

theorem src_eq (c : Dev nD) : V1 m ρ c main_v7
    = Host.gather gather_S50000x128_S800000x1_S800000x128_1_0_n_n_0_1_1128 (truncf .bf16 (m ((c : Thread nD τ).loc main_arg0)) bitsLt_bf16_f32 : FVec Ideal S50000x128 .bf16) (wrapCol (m ((c : Thread nD τ).loc main_arg1))) := by
  show StableHlo.after hostOps0 (W0 m ρ c) (Proc.devRef .tc main_v7) = _
  after_results

theorem dst_eq (c : Dev nD) : V1 m ρ c main_v14
    = Host.gather gather_S50000x128_S800000x1_S800000x128_1_0_n_n_0_1_1128 (truncf .bf16 (m ((c : Thread nD τ).loc main_arg0)) bitsLt_bf16_f32 : FVec Ideal S50000x128 .bf16) (wrapCol (m ((c : Thread nD τ).loc main_arg2))) := by
  show StableHlo.after hostOps0 (W0 m ρ c) (Proc.devRef .tc main_v14) = _
  after_results

theorem w1a_eq (c : Dev nD) : V1 m ρ c main_v16
    = (truncf .bf16 (extractStridedSlice S128x128 ![0, 0] (m ((c : Thread nD τ).loc main_arg3)) slices_S256x128_S128x128_0_0 : FVec Ideal S128x128 .f32) bitsLt_bf16_f32 : FVec Ideal S128x128 .bf16) := by
  show StableHlo.after hostOps0 (W0 m ρ c) (Proc.devRef .tc main_v16) = _
  after_results

theorem w1b_eq (c : Dev nD) : V1 m ρ c main_v18
    = (truncf .bf16 (extractStridedSlice S128x128 ![128, 0] (m ((c : Thread nD τ).loc main_arg3)) slices_S256x128_S128x128_128_0 : FVec Ideal S128x128 .f32) bitsLt_bf16_f32 : FVec Ideal S128x128 .bf16) := by
  show StableHlo.after hostOps0 (W0 m ρ c) (Proc.devRef .tc main_v18) = _
  after_results

theorem w2_eq (c : Dev nD) : V1 m ρ c main_v19 = (truncf .bf16 (m ((c : Thread nD τ).loc main_arg4)) bitsLt_bf16_f32 : FVec Ideal S128x128 .bf16) := by
  show StableHlo.after hostOps0 (W0 m ρ c) (Proc.devRef .tc main_v19) = _
  after_results

/-- The row slices of the first-layer weight are its two halves. -/
theorem slice_top (w : FVec Ideal S256x128 .f32) :
    (truncf .bf16 (extractStridedSlice S128x128 ![0, 0] w slices_S256x128_S128x128_0_0 : FVec Ideal S128x128 .f32) bitsLt_bf16_f32 : FVec Ideal S128x128 .bf16) = topHalf w := by
  funext y
  obtain ⟨a, k, rfl⟩ : ∃ (a : Fin 128) (k : Fin 128), y = ix2 a k := ⟨y 0, y 1, eq_ix2 y⟩
  exact slice2_axis0_apply 0 w slices_S256x128_S128x128_0_0 a k (top a) (Nat.zero_add _).symm
theorem slice_bot (w : FVec Ideal S256x128 .f32) :
    (truncf .bf16 (extractStridedSlice S128x128 ![128, 0] w slices_S256x128_S128x128_128_0 : FVec Ideal S128x128 .f32) bitsLt_bf16_f32 : FVec Ideal S128x128 .bf16) = botHalf w := by
  funext y
  obtain ⟨a, k, rfl⟩ : ∃ (a : Fin 128) (k : Fin 128), y = ix2 a k := ⟨y 0, y 1, eq_ix2 y⟩
  exact slice2_axis0_apply 128 w slices_S256x128_S128x128_128_0 a k (bot a) rfl

/-- The edge messages the first region leaves, of the program's arguments. -/
abbrev msgsOf (c : Dev nD) : S800000x128.Idx → EReal :=
  edgeMsg
    (Host.gather gather_S50000x128_S800000x1_S800000x128_1_0_n_n_0_1_1128 (m ((c : Thread nD τ).loc main_arg0)) (wrapCol (m ((c : Thread nD τ).loc main_arg1))))
    (Host.gather gather_S50000x128_S800000x1_S800000x128_1_0_n_n_0_1_1128 (m ((c : Thread nD τ).loc main_arg0)) (wrapCol (m ((c : Thread nD τ).loc main_arg2))))
    (topHalf (m ((c : Thread nD τ).loc main_arg3))) (botHalf (m ((c : Thread nD τ).loc main_arg3))) (m ((c : Thread nD τ).loc main_arg4))

theorem msgs_eq (c : Dev nD) : EdgeRegion.msgs (V1 m ρ) c = msgsOf m c := by
  show edgeMsg (V1 m ρ c main_v7) (V1 m ρ c main_v14) (V1 m ρ c main_v16) (V1 m ρ c main_v18) (V1 m ρ c main_v19) = _
  rw [src_eq, dst_eq, w1a_eq, w1b_eq, w2_eq, slice_top, slice_bot]
  rfl

/-! ## Between the regions -/

theorem keep_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
theorem keep_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results
theorem keep_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
theorem keep_feat16 (c : Dev nD) : W2 m ρ c (Proc.devRef .tc main_v0) = V1 m ρ c main_v0 :=
  W2_of_ne m ρ c main_v0 (by decide)

/-- The scattered sums the second region finds. -/
theorem sums_eq (c : Dev nD) : V3 m ρ c main_v23
    = Host.scatterAdd (F := Ideal) (φ := .f32) scatter_S50000x128_S800000x1_S800000x128_1_0_0_1
        (broadcastInDim S50000x128 ![] bcast_S_S50000x128 (constant S_ .f32 0x00000000#32))
        (broadcastInDim S800000x1 ![0] bcast_S800000_S800000x1_0 (m ((c : Thread nD τ).loc main_arg2)))
        (msgsOf m c) := by
  show StableHlo.after hostOps1 (W2 m ρ c) (Proc.devRef .tc main_v23) = _
  after_results
  rw [keep_arg2, show W2 m ρ c (Proc.devRef .tc main_v20) = (dat0 (V1 m ρ) c).arrAt 5 cfg0.N from W2_arr m ρ c 5,
    EdgeRegion.final, msgs_eq]

theorem feat_eq (c : Dev nD) : V3 m ρ c main_v0 = (truncf .bf16 (m ((c : Thread nD τ).loc main_arg0)) bitsLt_bf16_f32 : FVec Ideal S50000x128 .bf16) := by
  show StableHlo.after hostOps1 (W2 m ρ c) (Proc.devRef .tc main_v0) = _
  after_results
  rw [keep_feat16, feat16_eq]

theorem loop_eq (c : Dev nD) : V3 m ρ c main_v24 = (truncf .bf16 (m ((c : Thread nD τ).loc main_arg5)) bitsLt_bf16_f32 : FVec Ideal S128x128 .bf16) := by
  show StableHlo.after hostOps1 (W2 m ρ c) (Proc.devRef .tc main_v24) = _
  after_results
  rw [keep_arg5]

theorem bias_eq (c : Dev nD) : V3 m ρ c main_v25 = shapeCast S1x128 (m ((c : Thread nD τ).loc main_arg6)) shapeCasts_S128_S1x128 := by
  show StableHlo.after hostOps1 (W2 m ρ c) (Proc.devRef .tc main_v25) = _
  after_results
  rw [keep_arg6]
  rfl

/-- The reshaped bias, read as a row, is the bias. -/
theorem biasRow_eq (c : Dev nD) : NodeRegion.biasRow (V3 m ρ) c = m ((c : Thread nD τ).loc main_arg6) := by
  funext q
  obtain ⟨j, rfl⟩ : ∃ j : Fin 128, q = ix1 j := ⟨q 0, eq_ix1 q⟩
  show V3 m ρ c main_v25 (ix2 (0 : Fin 1) j) = _
  rw [bias_eq]
  exact shapeCast_a_1a_apply _ shapeCasts_S128_S1x128 0 j

/-! ## The result -/

/-- THE RESULT ARRAY after the run, of the program's arguments. -/
theorem result_eq (c : Dev nD) : W4 m ρ c (Proc.devRef .tc main_v26)
    = nodeOut
        (Host.scatterAdd (F := Ideal) (φ := .f32) scatter_S50000x128_S800000x1_S800000x128_1_0_0_1
          (broadcastInDim S50000x128 ![] bcast_S_S50000x128 (constant S_ .f32 0x00000000#32))
          (broadcastInDim S800000x1 ![0] bcast_S800000_S800000x1_0 (m ((c : Thread nD τ).loc main_arg2)))
          (msgsOf m c))
        (m ((c : Thread nD τ).loc main_arg0)) (m ((c : Thread nD τ).loc main_arg5)) (m ((c : Thread nD τ).loc main_arg6)) := by
  rw [show W4 m ρ c (Proc.devRef .tc main_v26) = (dat1 (V3 m ρ) c).arrAt 4 cfg1.N from W4_arr m ρ c 4, NodeRegion.final]
  show nodeOut (V3 m ρ c main_v23) (V3 m ρ c main_v0) (V3 m ρ c main_v24) (NodeRegion.biasRow (V3 m ρ) c) = _
  rw [sums_eq, feat_eq, loop_eq, biasRow_eq]
  rfl

end Cert.KernelIdeal.KernelValue

end
-- ==== Proof.RefValue.lean ====
/-
  THE REFERENCE'S RESULT as the node update of the scattered edge messages.

  The reference joins the two gathered arrays along the feature axis into rows (S e | D e) of length 256 and
  multiplies by the whole first-layer weight: at (e, k) that is the hidden layer over the weight's two halves (a sum
  over 256 indices is the sum over the first 128 plus the sum over the last 128). Rectified and multiplied by the
  second weight it is the edge message. The scatter-add of the messages is left as the function it is. The reference
  then adds the bias and after it the self-loop product; the node update adds them in the other order, and addition of
  extended reals is commutative and associative.
-/
import proofs.«132703_j22179211116725_1_alg».proof.Proof.Gen.ReferenceIdeal.Run
import proofs.«132703_j22179211116725_1_alg».proof.Proof.Gen.ReferenceIdeal.Read
import proofs.«132703_j22179211116725_1_alg».proof.Proof.LibPlainDot
import proofs.«132703_j22179211116725_1_alg».proof.Proof.Spec
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Read Cert.EdgeConv
open Idealize.ShloMosaic Idealize.ShloMosaic.ValueIdx

/-- The reference's three products are plain rank-2 products. -/
theorem plain_w1 : Cert.Lib.PlainDot.Plain dot_S800000x256_S256x128_S800000x128_1_0_0_1_n_n := ⟨rfl, rfl, rfl, rfl, rfl, rfl⟩
theorem plain_w2 : Cert.Lib.PlainDot.Plain dot_S800000x128_S128x128_S800000x128_1_0_0_1_n_n := ⟨rfl, rfl, rfl, rfl, rfl, rfl⟩
theorem plain_loop : Cert.Lib.PlainDot.Plain dot_S50000x128_S128x128_S50000x128_1_0_0_1_n_n := ⟨rfl, rfl, rfl, rfl, rfl, rfl⟩

variable (x0 : (⟨S50000x128, .f32⟩ : BufTy).Contents (Elt Ideal)) (x1 x2 : (⟨S800000, .i32⟩ : BufTy).Contents (Elt Ideal))
  (x3 : (⟨S256x128, .f32⟩ : BufTy).Contents (Elt Ideal)) (x4 x5 : (⟨S128x128, .f32⟩ : BufTy).Contents (Elt Ideal))
  (x6 : (⟨S128, .f32⟩ : BufTy).Contents (Elt Ideal))

/-- The joined rows' first 128 entries are the source rows. -/
theorem joined_left (e : Fin 800000) (a : Fin 128) :
    val_main_v14 (F := Ideal) x0 x1 x2 (ix2 e (top a)) = val_main_v6 (F := Ideal) x0 x1 (ix2 e a) := by
  unfold val_main_v14
  exact concatenate_pair_apply_left (t := S800000x256) (s₁ := S800000x128) (s₂ := S800000x128) (1 : Fin 2)
    (val_main_v6 (F := Ideal) x0 x1) (val_main_v13 (F := Ideal) x0 x2) concatenates_S800000x128_S800000x128_S800000x256_d1 (ix2 e (top a)) rfl (ix2 e a)
    (fun b => by match b with | ⟨0, _⟩ => rfl | ⟨1, _⟩ => rfl)

/-- The joined rows' last 128 entries are the destination rows. -/
theorem joined_right (e : Fin 800000) (a : Fin 128) :
    val_main_v14 (F := Ideal) x0 x1 x2 (ix2 e (bot a)) = val_main_v13 (F := Ideal) x0 x2 (ix2 e a) := by
  unfold val_main_v14
  exact concatenate_pair_apply_right (t := S800000x256) (s₁ := S800000x128) (s₂ := S800000x128) (1 : Fin 2)
    (val_main_v6 (F := Ideal) x0 x1) (val_main_v13 (F := Ideal) x0 x2) concatenates_S800000x128_S800000x128_S800000x256_d1 (ix2 e (bot a)) rfl rfl (ix2 e a)
    (fun b hb => by match b with | ⟨0, _⟩ => rfl | ⟨1, _⟩ => exact absurd rfl hb)
    (Nat.add_comm _ _)

/-- The first product at (e, k) is the hidden layer over the weight's two halves. -/
theorem hidden_eq (e : Fin 800000) (k : Fin 128) :
    val_main_v15 (F := Ideal) x0 x1 x2 x3 (ix2 e k)
      = hidden (val_main_v6 (F := Ideal) x0 x1) (val_main_v13 (F := Ideal) x0 x2) (topHalf x3) (botHalf x3) e k := by
  unfold val_main_v15
  refine (Cert.Lib.PlainDot.dotGeneral_apply plain_w1 (φ₁ := .f32) (φ₂ := .f32) none _ (val_main_v14 (F := Ideal) x0 x1 x2) x3 (ix2 e k)).trans ?_
  exact hidden_of_joined _ _ (val_main_v14 (F := Ideal) x0 x1 x2) x3 (joined_left x0 x1 x2) (joined_right x0 x1 x2) e k

/-- The second product is the edge-message function of the two gathered arrays. -/
theorem msgs_eq : val_main_v17 (F := Ideal) x0 x1 x2 x3 x4
    = edgeMsg (val_main_v6 (F := Ideal) x0 x1) (val_main_v13 (F := Ideal) x0 x2) (topHalf x3) (botHalf x3) x4 := by
  funext i
  obtain ⟨e, j, rfl⟩ : ∃ (e : Fin 800000) (j : Fin 128), i = ix2 e j := ⟨i 0, i 1, eq_ix2 i⟩
  unfold val_main_v17
  refine (Cert.Lib.PlainDot.dotGeneral_apply plain_w2 (φ₁ := .f32) (φ₂ := .f32) none _ (val_main_v16 (F := Ideal) x0 x1 x2 x3) x4 (ix2 e j)).trans ?_
  unfold edgeMsg
  refine Finset.sum_congr rfl fun k _ => ?_
  refine congrArg (· * x4 (ix2 k j)) ?_
  exact congrArg₂ max (hidden_eq x0 x1 x2 x3 e k) Ideal.ofBits_zero_f32

/-- The bias broadcast over the nodes reads the bias at the column. -/
theorem bias_apply (n : Fin 50000) (j : Fin 128) : val_main_v22 (F := Ideal) x6 (ix2 n j) = x6 (ix1 j) := by
  rw [val_main_v22_apply, val_main_v21_apply]
  exact congrArg x6 (funext fun a => by match a with | ⟨0, _⟩ => rfl)

/-- The self-loop product at (n, j). -/
theorem loop_apply (n : Fin 50000) (j : Fin 128) :
    val_main_v24 (F := Ideal) x0 x5 (ix2 n j) = ∑ k : Fin 128, x0 (ix2 n k) * x5 (ix2 k j) := by
  unfold val_main_v24
  exact Cert.Lib.PlainDot.dotGeneral_apply plain_loop (φ₁ := .f32) (φ₂ := .f32) none _ x0 x5 (ix2 n j)

/-- The scattered sums are the scatter-add of the edge messages. -/
theorem sums_eq : val_main_v20 (F := Ideal) x0 x1 x2 x3 x4
    = Host.scatterAdd (F := Ideal) (φ := .f32) scatter_S50000x128_S800000x1_S800000x128_1_0_0_1 (val_main_v18 (F := Ideal)) (val_main_v19 (F := Ideal) x2)
        (edgeMsg (val_main_v6 (F := Ideal) x0 x1) (val_main_v13 (F := Ideal) x0 x2) (topHalf x3) (botHalf x3) x4) := by
  unfold val_main_v20
  rw [msgs_eq]

/-- Adding the bias before the self-loop product instead of after it gives the same node update. -/
theorem bias_first {N : Nat} (T X : (⟨2, ![N, 128]⟩ : Shape).Idx → EReal) (L : (⟨2, ![128, 128]⟩ : Shape).Idx → EReal)
    (b : (⟨1, ![128]⟩ : Shape).Idx → EReal) (n : Fin N) (j : Fin 128) :
    T (ix2 n j) + b (ix1 j) + ∑ k : Fin 128, X (ix2 n k) * L (ix2 k j) = nodeOut T X L b (ix2 n j) :=
  add_right_comm _ _ _

/-- THE REFERENCE'S RESULT: the node update of the scattered sums. -/
theorem result_eq : val_main_v25 (F := Ideal) x0 x1 x2 x3 x4 x5 x6
    = nodeOut (val_main_v20 (F := Ideal) x0 x1 x2 x3 x4) x0 x5 x6 := by
  funext i
  obtain ⟨n, j, rfl⟩ : ∃ (n : Fin 50000) (j : Fin 128), i = ix2 n j := ⟨i 0, i 1, eq_ix2 i⟩
  rw [val_main_v25_apply, val_main_v23_apply]
  generalize val_main_v20 (F := Ideal) x0 x1 x2 x3 x4 = T
  refine Eq.trans ?_ (bias_first T x0 x5 x6 n j)
  exact congrArg₂ (· + ·) (congrArg (T (ix2 n j) + ·) (bias_apply x6 n j)) (loop_apply x0 x5 n j)

end Cert.ReferenceIdeal.RefValue

end
-- ==== Proof.lean ====
/-
  Message passing on a graph (800000 edges, 50000 nodes, 128 features): the kernel program against its reference,
  equal over the extended reals.

  Both compute   out = (∑ over edges into a node of msg) + X · L + b,   msg e = relu (S e · A + D e · B) · W2,
  where S and D are the node-feature rows gathered at each edge's two end points and A, B are the top and bottom
  halves of the first-layer weight. The kernel program runs the edge layer as one region over 125 blocks of 6400 edges
  and the node update as a second region over 25 blocks of 2000 nodes, with the gathers and the scatter-add on the
  host between them; the reference joins (S e | D e) into one row of length 256 and multiplies by the whole weight, and
  adds the bias before the self-loop product instead of after it. Every change of float format is the identity on the
  extended reals. The two laws that join the sides are: a sum over 256 indices is the sum over the first 128 plus the
  sum over the last 128, and (t + b) + s = (t + s) + b; neither multiplies a sum, so the inputs' finiteness is not used.
  The gathers and the scatter-add are the same functions of the same indices on both sides and are never opened.
-/
import proofs.«132703_j22179211116725_1_alg».proof.Defs
import proofs.«132703_j22179211116725_1_alg».proof.Proof.Gen.Kernel
import proofs.«132703_j22179211116725_1_alg».proof.Proof.Gen.Kernel.Skeleton
import proofs.«132703_j22179211116725_1_alg».proof.Proof.Gen.Kernel.Launch
import proofs.«132703_j22179211116725_1_alg».proof.Proof.Gen.Kernel.Points
import proofs.«132703_j22179211116725_1_alg».proof.Proof.Gen.Kernel.Frame
import proofs.«132703_j22179211116725_1_alg».proof.Proof.Gen.KernelIdeal
import proofs.«132703_j22179211116725_1_alg».proof.Proof.Gen.KernelIdeal.Skeleton
import proofs.«132703_j22179211116725_1_alg».proof.Proof.Gen.KernelIdeal.Launch
import proofs.«132703_j22179211116725_1_alg».proof.Proof.Gen.KernelIdeal.Points
import proofs.«132703_j22179211116725_1_alg».proof.Proof.Gen.KernelIdeal.Frame
import proofs.«132703_j22179211116725_1_alg».proof.Proof.Gen.ReferenceIdeal
import proofs.«132703_j22179211116725_1_alg».proof.Proof.Gen.Pre_finite_inputs
import proofs.«132703_j22179211116725_1_alg».proof.Proof.KernelValue
import proofs.«132703_j22179211116725_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- The idealized program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the node update of the scatter-added edge messages of the same arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KernelValue.result_eq m ρ c), (h c).2⟩) (Cert.KernelIdeal.Result.run m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq, Cert.ReferenceIdeal.RefValue.sums_eq]
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
